-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S512x4096 : Shape := ⟨2, ![512, 4096]⟩

abbrev nBuf : Space → Nat
  | .hbm => 2
  | .vmem => 4
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .f32 = 32 ∨ (Rect.block (s := S8192x4096) S512x4096.size (cc0_transform_1 i) (hinb0_1 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S2042 : Shape := ⟨1, ![2042]⟩
abbrev S_ : Shape := ⟨0, ![]⟩
abbrev S2042x1 : Shape := ⟨2, ![2042, 1]⟩
abbrev S14 : Shape := ⟨1, ![14]⟩
abbrev S1x14 : Shape := ⟨2, ![1, 14]⟩
abbrev S2042x14 : Shape := ⟨2, ![2042, 14]⟩
abbrev S2042x14x1 : Shape := ⟨3, ![2042, 14, 1]⟩
abbrev S8192x2042x14 : Shape := ⟨3, ![8192, 2042, 14]⟩
abbrev S28588 : Shape := ⟨1, ![28588]⟩
abbrev S8192x28588 : Shape := ⟨2, ![8192, 28588]⟩
abbrev S28588x1 : Shape := ⟨2, ![28588, 1]⟩
abbrev S4096 : Shape := ⟨1, ![4096]⟩
abbrev S1x4096 : Shape := ⟨2, ![1, 4096]⟩

abbrev nBuf : Space → Nat
  | .hbm => 52
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2042, .i32⟩
  | .hbm, ⟨2, _⟩ => ⟨S_, .i32⟩
  | .hbm, ⟨3, _⟩ => ⟨S2042, .i32⟩
  | .hbm, ⟨4, _⟩ => ⟨S2042, .i32⟩
  | .hbm, ⟨5, _⟩ => ⟨S_, .i32⟩
  | .hbm, ⟨6, _⟩ => ⟨S2042, .i32⟩
  | .hbm, ⟨7, _⟩ => ⟨S2042, .i32⟩
  | .hbm, ⟨8, _⟩ => ⟨S2042x1, .i32⟩
  | .hbm, ⟨9, _⟩ => ⟨S14, .i32⟩
  | .hbm, ⟨10, _⟩ => ⟨S1x14, .i32⟩
  | .hbm, ⟨11, _⟩ => ⟨S2042x14, .i32⟩
  | .hbm, ⟨12, _⟩ => ⟨S2042x14, .i32⟩
  | .hbm, ⟨13, _⟩ => ⟨S2042x14, .i32⟩
  | .hbm, ⟨14, _⟩ => ⟨S_, .i32⟩
  | .hbm, ⟨15, _⟩ => ⟨S2042x14, .i32⟩
  | .hbm, ⟨16, _⟩ => ⟨S2042x14, .i1⟩
  | .hbm, ⟨17, _⟩ => ⟨S_, .i32⟩
  | .hbm, ⟨18, _⟩ => ⟨S2042x14, .i32⟩
  | .hbm, ⟨19, _⟩ => ⟨S2042x14, .i32⟩
  | .hbm, ⟨20, _⟩ => ⟨S2042x14, .i32⟩
  | .hbm, ⟨21, _⟩ => ⟨S2042x14x1, .i32⟩
  | .hbm, ⟨22, _⟩ => ⟨S8192x2042x14, .f32⟩
  | .hbm, ⟨23, _⟩ => ⟨S28588, .i32⟩
  | .hbm, ⟨24, _⟩ => ⟨S_, .f32⟩
  | .hbm, ⟨25, _⟩ => ⟨S8192x4096, .f32⟩
  | .hbm, ⟨26, _⟩ => ⟨S8192x28588, .f32⟩
  | .hbm, ⟨27, _⟩ => ⟨S_, .i32⟩
  | .hbm, ⟨28, _⟩ => ⟨S28588, .i32⟩
  | .hbm, ⟨29, _⟩ => ⟨S28588, .i1⟩
  | .hbm, ⟨30, _⟩ => ⟨S_, .i32⟩
  | .hbm, ⟨31, _⟩ => ⟨S28588, .i32⟩
  | .hbm, ⟨32, _⟩ => ⟨S28588, .i32⟩
  | .hbm, ⟨33, _⟩ => ⟨S28588, .i32⟩
  | .hbm, ⟨34, _⟩ => ⟨S28588x1, .i32⟩
  | .hbm, ⟨35, _⟩ => ⟨S8192x4096, .f32⟩
  | .hbm, ⟨36, _⟩ => ⟨S_, .f32⟩
  | .hbm, ⟨37, _⟩ => ⟨S4096, .f32⟩
  | .hbm, ⟨38, _⟩ => ⟨S_, .i32⟩
  | .hbm, ⟨39, _⟩ => ⟨S28588, .i32⟩
  | .hbm, ⟨40, _⟩ => ⟨S28588, .i1⟩
  | .hbm, ⟨41, _⟩ => ⟨S_, .i32⟩
  | .hbm, ⟨42, _⟩ => ⟨S28588, .i32⟩
  | .hbm, ⟨43, _⟩ => ⟨S28588, .i32⟩
  | .hbm, ⟨44, _⟩ => ⟨S28588, .i32⟩
  | .hbm, ⟨45, _⟩ => ⟨S28588x1, .i32⟩
  | .hbm, ⟨46, _⟩ => ⟨S_, .f32⟩
  | .hbm, ⟨47, _⟩ => ⟨S28588, .f32⟩
  | .hbm, ⟨48, _⟩ => ⟨S4096, .f32⟩
  | .hbm, ⟨49, _⟩ => ⟨S1x4096, .f32⟩
  | .hbm, ⟨50, _⟩ => ⟨S8192x4096, .f32⟩
  | .hbm, ⟨51, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_c_3 : Ref sig .tc := ⟨.hbm, 27, rfl⟩
abbrev main_v21 : Ref sig .tc := ⟨.hbm, 28, rfl⟩
abbrev main_v22 : Ref sig .tc := ⟨.hbm, 29, rfl⟩
abbrev main_c_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_c_6 : Ref sig .tc := ⟨.hbm, 38, rfl⟩
abbrev main_v29 : Ref sig .tc := ⟨.hbm, 39, rfl⟩
abbrev main_v30 : Ref sig .tc := ⟨.hbm, 40, rfl⟩
abbrev main_c_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]

class Facts₀ : Prop where
  bcast_S_S2042 : S_.BroadcastsInDim S2042 (![] : Fin 0 → Fin S2042.rank)
  bcast_S2042_S2042x1_0 : S2042.BroadcastsInDim S2042x1 (![0] : Fin 1 → Fin S2042x1.rank)
  bcast_S14_S1x14_1 : S14.BroadcastsInDim S1x14 (![1] : Fin 1 → Fin S1x14.rank)
  bcast_S2042x1_S2042x14_0_1 : S2042x1.BroadcastsInDim S2042x14 (![0, 1] : Fin 2 → Fin S2042x14.rank)
  bcast_S1x14_S2042x14_0_1 : S1x14.BroadcastsInDim S2042x14 (![0, 1] : Fin 2 → Fin S2042x14.rank)
  bcast_S_S2042x14 : S_.BroadcastsInDim S2042x14 (![] : Fin 0 → Fin S2042x14.rank)
  bcast_S2042x14_S2042x14x1_0_1 : S2042x14.BroadcastsInDim S2042x14x1 (![0, 1] : Fin 2 → Fin S2042x14x1.rank)
  shapeCasts_S2042x14_S28588 : S2042x14.ShapeCasts S28588
  bcast_S_S8192x4096 : S_.BroadcastsInDim S8192x4096 (![] : Fin 0 → Fin S8192x4096.rank)
  shapeCasts_S8192x2042x14_S8192x28588 : S8192x2042x14.ShapeCasts S8192x28588
  bcast_S_S28588 : S_.BroadcastsInDim S28588 (![] : Fin 0 → Fin S28588.rank)
  bcast_S28588_S28588x1_0 : S28588.BroadcastsInDim S28588x1 (![0] : Fin 1 → Fin S28588x1.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  gather_S8192x4096_S2042x14x1_S8192x2042x14_0_1_n_n_1_2_81921_wf : GatherDims.WF S8192x4096 S2042x14x1 S8192x2042x14 [0] [1] [] [1] [] 2 ![8192, 1]
  scatter_S8192x4096_S28588x1_S8192x28588_0_1_1_1_wf : ScatterDims.WF S8192x4096 S28588x1 S8192x28588 [0] [1] [1] 1
  scatter_S4096_S28588x1_S28588_n_0_0_1_wf : ScatterDims.WF S4096 S28588x1 S28588 [] [0] [0] 1

variable [Facts₀]

def gather_S8192x4096_S2042x14x1_S8192x2042x14_0_1_n_n_1_2_81921 : GatherDims S8192x4096 S2042x14x1 S8192x2042x14 where
  offsetDims := [0]
  collapsedSliceDims := [1]
  operandBatchingDims := []
  startIndicesBatchingDims := []
  startIndexMap := [1]
  indexVectorDim := 2
  sliceSizes := ![8192, 1]
  wf := gather_S8192x4096_S2042x14x1_S8192x2042x14_0_1_n_n_1_2_81921_wf
def scatter_S8192x4096_S28588x1_S8192x28588_0_1_1_1 : ScatterDims S8192x4096 S28588x1 S8192x28588 where
  updateWindowDims := [0]
  insertedWindowDims := [1]
  scatterDimsToOperandDims := [1]
  indexVectorDim := 1
  wf := scatter_S8192x4096_S28588x1_S8192x28588_0_1_1_1_wf
def scatter_S4096_S28588x1_S28588_n_0_0_1 : ScatterDims S4096 S28588x1 S28588 where
  updateWindowDims := []
  insertedWindowDims := [0]
  scatterDimsToOperandDims := [0]
  indexVectorDim := 1
  wf := scatter_S4096_S28588x1_S28588_n_0_0_1_wf

class Facts : Prop extends Facts₀ where

variable [Facts]
-- ==== Proof.KernelValue.lean ====
/-
  The kernel copies its input.

  The kernel's grid has 16 points; point `t` reads rows `512 t … 512 t + 511` of the input (all 4096 columns) into a
  block and stores the block, unchanged, as the same rows of the output. So what point `t` writes back is block `t` of
  the input array itself, the 16 blocks cover every row, and the output array ends equal to the input array.
-/
import proofs.«172628_j72885595013444_1_alg».proof.Proof.Gen.KernelIdeal.Value
import Idealize.ShloMosaic.Lib.Pipeline.Value

noncomputable section

namespace Cert.KernelIdeal.Copy

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's one load and one store start at the block's origin. -/
theorem origin : (![0, 0] : Fin 2 → Nat) = fun _ => 0 := funext fun a => by fin_cases a <;> rfl

/-- The input array as the region finds it. -/
abbrev src (c : Dev nD) : S8192x4096.Idx → Elt F .f32 := V m c main_arg0

/-- At every grid point the input window and the output window sit at the same block: block row `t`, block
    column 0 (decided over the 16 points). -/
theorem same_block : ∀ t : Fin cfg0.N, win0_0.index t (0 : Fin 2) = win0_1.index t (0 : Fin 2)
    ∧ win0_0.index t (1 : Fin 2) = win0_1.index t (1 : Fin 2)
    ∧ win0_1.index t (0 : Fin 2) = t.val ∧ win0_1.index t (1 : Fin 2) = 0 :=
  (by decide +kernel : ∀ t : Fin grid0.N, _)

/-- WHAT POINT `t` WRITES BACK is block `t` of the input array. -/
theorem written_block (c : Dev nD) (t : Fin cfg0.N) :
    (dats m 0 c).flushed 1 t = ((cfg0.win 1).blk t).view.read (Elt F) (src m c) := by
  rw [flushed1]
  unfold out0_1
  rw [View.canon_unit_zero origin]
  simp only [View.ld_unit_zero (S := S512x4096) origin]
  obtain ⟨e0, e1, -, -⟩ := same_block t
  funext j
  show V m c main_arg0 (((cfg0.win 0).blk t).view.emb j) = V m c main_arg0 (((cfg0.win 1).blk t).view.emb j)
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 4096 + 1 * (j 1).val = win0_1.index t (1 : Fin 2) * 4096 + 1 * (j 1).val; omega
  rw [h0]

/-- An index of the output array is in point `t`'s block iff each coordinate is in the block's range on its axis. -/
theorem mem_block (t : Fin cfg0.N) (i : S8192x4096.Idx) :
    i ∈ ((cfg0.win 1).blk t).view.set ↔ ∀ a : Fin 2, win0_1.index t a * S512x4096.size a ≤ (i a).val
      ∧ (i a).val < win0_1.index t a * S512x4096.size a + S512x4096.size a := by
  show i ∈ ((View.whole main_v0).slice (win0_1.rect t)).set ↔ _
  rw [View.set_slice_whole, Rect.mem_set_unit]
  exact Iff.rfl

/-- EVERY ROW IS WRITTEN: row `i` lies in the block of point `i / 512`. -/
theorem every_row_written (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨-, -, e2, e3⟩ := same_block t
  refine ⟨t, flush0_1 t, ?_⟩
  rw [mem_block]
  intro a
  match a with
  | ⟨0, _⟩ =>
    show win0_1.index t (0 : Fin 2) * 512 ≤ (i 0).val ∧ (i 0).val < win0_1.index t (0 : Fin 2) * 512 + 512
    omega
  | ⟨1, _⟩ =>
    show win0_1.index t (1 : Fin 2) * 4096 ≤ (i 1).val ∧ (i 1).val < win0_1.index t (1 : Fin 2) * 4096 + 4096
    omega

/-- THE OUTPUT ARRAY after the run is the input array. -/
theorem final (c : Dev nD) : (dats m 0 c).arrAt 1 cfg0.N = src m c :=
  (dats m 0 c).arrAt_eq_of_cover 1 (src m c) (fun t _ => written_block m c t) every_row_written

/-- The kernel's run: the result array ends holding the argument array, the argument unchanged. -/
theorem run : θ_run defs (onTc (τ := τ) (main (F := F))) ⟨m, fun _ => 0, ρ⟩ fun r => ∀ c : Dev nD,
      r.2.mem ((c : Thread nD τ).loc main_v0) = src m c
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Copy

end
-- ==== Proof.Columns.lean ====
/-
  The windows' column numbers.

  The reference lays 2042 windows of 14 columns over the 4096 columns of the input, window `s` starting at column
  `2 s`; flattened, position `r` of the window table (window `r / 14`, offset `r % 14`) holds the column
  `2 (r / 14) + r % 14`. The program computes that table with 32-bit integer arithmetic (an iota times two plus an
  iota), wraps negative entries by the row length — none is negative, so the wrap leaves the table as it is — and uses
  it three times: as the gather's start indices and as the scatter indices of the two accumulations. This file reads
  each use at an index, as the word of the natural number `2 (r / 14) + r % 14`, which is below 4096; and shows that
  every column is some window's.
-/
import proofs.«172628_j72885595013444_1_alg».proof.Proof.Gen.ReferenceIdeal.Read
import Idealize.ShloMosaic.Lib.ValueIdx
import Idealize.ShloMosaic.Lib.StableHlo.Predicate

noncomputable section

namespace Cert.ReferenceIdeal.Columns

open Cert.ReferenceIdeal Cert.ReferenceIdeal.Gen Cert.ReferenceIdeal.Read
open Idealize.ShloMosaic Idealize.ShloMosaic.ValueIdx Idealize.ShloMosaic.StableHlo.Predicate

variable {F : FTy → Type} [FloatOps F]

/-- The column that position `r` of the flattened window table names. -/
def col (r : Fin 28588) : Nat := 2 * (r.val / 14) + r.val % 14

theorem col_lt (r : Fin 28588) : col r < 4096 := by
  have := r.isLt
  unfold col; omega

/-- EVERY COLUMN IS COVERED: column `d` lies in the window that starts at the even number just below it, or, for the
    last twelve columns, in the last window (which starts at column 4082). -/
theorem covered (d : Fin 4096) : ∃ r : Fin 28588, col r = d.val := by
  have hd := d.isLt
  by_cases h : d.val ≤ 4083
  · exact ⟨⟨(d.val / 2) * 14 + d.val % 2, by omega⟩, by unfold col; dsimp only; omega⟩
  · exact ⟨⟨2041 * 14 + (d.val - 4082), by omega⟩, by unfold col; dsimp only; omega⟩

/-- A word that is a small natural number is not negative, so the wrap of negative indices keeps it. -/
theorem wrap_keeps (n : ℕ) (hn : n < 2 ^ 31) (a : BitVec 32) :
    Scalar.select (IntOp.cmpi .slt (BitVec.ofNat 32 n) 0#32) a (BitVec.ofNat 32 n) = BitVec.ofNat 32 n := by
  unfold Scalar.select
  refine if_neg fun h => ?_
  have h' := (slt_ofNat_iff n 0 hn (by norm_num)).mp h
  omega

/-- THE WINDOW TABLE: entry `(s, e)` is the word of `2 s + e`. -/
theorem table_apply (i : S2042x14.Idx) :
    val_main_v10 (F := F) i = BitVec.ofNat 32 (2 * (i 0).val + (i 1).val) := by
  rw [val_main_v10_apply, val_main_v8_apply, val_main_v5_apply, val_main_v4_apply, val_main_v3_apply, val_main_c_0_apply,
    val_main_v2_apply, val_main_v1_apply, val_main_c_apply, val_main_v0_apply, val_main_v9_apply, val_main_v7_apply,
    val_main_v6_apply]
  show (0#32 + 2#32 * BitVec.ofNat 32 (i 0).val) + BitVec.ofNat 32 (i 1).val = _
  rw [BitVec.zero_add, show (2#32 : BitVec 32) = BitVec.ofNat 32 2 from rfl, ← BitVec.ofNat_mul, ← BitVec.ofNat_add]

theorem table_small (i : S2042x14.Idx) : 2 * (i 0).val + (i 1).val < 2 ^ 31 := by
  have h0 : (i 0).val < 2042 := (i 0).isLt
  have h1 : (i 1).val < 14 := (i 1).isLt
  omega

/-- The table with its negative entries wrapped is the table. -/
theorem wrapped_apply (i : S2042x14.Idx) :
    val_main_v15 (F := F) i = BitVec.ofNat 32 (2 * (i 0).val + (i 1).val) := by
  rw [val_main_v15_apply, val_main_v12_apply, val_main_v11_apply, val_main_c_1_apply, table_apply]
  exact wrap_keeps _ (table_small i) _

/-- THE GATHER'S START INDICES: entry `(s, e, 0)` is the word of `2 s + e`. -/
theorem starts_apply (i : S2042x14x1.Idx) :
    val_main_v16 (F := F) i = BitVec.ofNat 32 (2 * (i 0).val + (i 1).val) := by
  rw [val_main_v16_apply, wrapped_apply]

/-- The flattened table: entry `r` is the word of `2 (r / 14) + r % 14`. -/
theorem flat_apply (i : S28588.Idx) :
    val_main_v18 (F := F) i = BitVec.ofNat 32 (2 * ((i 0).val / 14) + (i 0).val % 14) := by
  rw [val_main_v18_apply, table_apply]

theorem flat_small (i : S28588.Idx) : 2 * ((i 0).val / 14) + (i 0).val % 14 < 2 ^ 31 := by
  have h0 : (i 0).val < 28588 := (i 0).isLt
  omega

/-- THE SCATTER INDICES of the accumulated copies: entry `(r, 0)` is the word of `2 (r / 14) + r % 14`. -/
theorem sum_indices_apply (i : S28588x1.Idx) :
    val_main_v26 (F := F) i = BitVec.ofNat 32 (2 * ((i 0).val / 14) + (i 0).val % 14) := by
  rw [val_main_v26_apply, val_main_v25_apply, val_main_v22_apply, val_main_v21_apply, val_main_c_3_apply, flat_apply]
  exact wrap_keeps _ (flat_small _) _

/-- THE SCATTER INDICES of the accumulated count: the same. -/
theorem count_indices_apply (i : S28588x1.Idx) :
    val_main_v34 (F := F) i = BitVec.ofNat 32 (2 * ((i 0).val / 14) + (i 0).val % 14) := by
  rw [val_main_v34_apply, val_main_v33_apply, val_main_v30_apply, val_main_v29_apply, val_main_c_6_apply, flat_apply]
  exact wrap_keeps _ (flat_small _) _

/-- Position `r`'s copy lands on column `d` exactly when `r` names `d`. -/
theorem sum_hits_iff (r : Fin 28588) (d : Fin 4096) :
    (val_main_v26 (F := F) (ix2 r (0 : Fin 1))).toInt = (d.val : Int) ↔ col r = d.val := by
  have hr := r.isLt
  rw [sum_indices_apply]
  show (BitVec.ofNat 32 (2 * (r.val / 14) + r.val % 14)).toInt = (d.val : Int) ↔ col r = d.val
  rw [toInt_ofNat_small _ (by omega)]
  unfold col
  omega

/-- Position `r`'s one lands on column `d` exactly when `r` names `d`. -/
theorem count_hits_iff (r : Fin 28588) (d : Fin 4096) :
    (val_main_v34 (F := F) (ix2 r (0 : Fin 1))).toInt = (d.val : Int) ↔ col r = d.val := by
  have hr := r.isLt
  rw [count_indices_apply]
  show (BitVec.ofNat 32 (2 * (r.val / 14) + r.val % 14)).toInt = (d.val : Int) ↔ col r = d.val
  rw [toInt_ofNat_small _ (by omega)]
  unfold col
  omega

end Cert.ReferenceIdeal.Columns

end
-- ==== Proof.LibIndex.lean ====
/-
  Three host operations read at an index, and two facts of extended-real arithmetic.

  A gather of whole rows of a matrix (one start index per result row), a scatter that adds whole rows of an update
  matrix into the rows of an operand, and its rank-1 form that adds scalars into a vector: each is read at one
  element. The scatters are read at the ideal instance, where a float is an extended real and the accumulation is
  the exact sum over the updates that land on the element.
-/
import Idealize.ShloMosaic.PureOps.Ideal
import Idealize.ShloMosaic.Lib.ValueIdx
import Mathlib.Data.EReal.Operations
import Mathlib.Algebra.BigOperators.Group.Finset.Basic
import Mathlib.Algebra.BigOperators.Group.Finset.Piecewise

noncomputable section

open scoped BigOperators

namespace Cert.LibIndex

open Idealize.ShloMosaic Idealize.ShloMosaic.ValueIdx

/-! ## A gather of rows -/

section RowGather
variable {α : Type}

/-- The dimension numbers of a gather of whole rows: operand `[N, C]`, start indices `[R, 1]` (one row number
    per result row), result `[R, C]`; axis 0 of the operand is collapsed and indexed, axis 1 is the offset axis,
    the slice is one whole row. The conditions `wf` are decided on a program's literal shapes. -/
abbrev rowGatherDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(k, c)`: column `c` of the operand's row whose number is the start index
    `idx[k, 0]`, read signed and clamped into `[0, N − 1]`. -/
theorem gather_row_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (k : Fin R) (c : Fin C) :
    Host.gather (rowGatherDims N C R wf) x idx (ix2 k c)
      = x (ix2 ⟨min (idx (ix2 k (0 : Fin 1))).toInt.toNat (N - 1), by omega⟩ c) := by
  -- the start on axis 0: the clamped start index; on axis 1 (not in the start index map): zero
  have hst0 : (rowGatherDims N C R wf).start (ix2 k c) idx (0 : Fin 2)
      = min (idx (ix2 k (0 : Fin 1))).toInt.toNat (N - 1) := by
    unfold GatherDims.start
    rw [dif_pos (show (0 : Fin 2) ∈ (rowGatherDims N C R wf).startIndexMap from List.mem_singleton.mpr rfl)]
    have hsi : (rowGatherDims N C R wf).siIdx (ix2 k c) ⟨List.idxOf (0 : Fin 2) (rowGatherDims N C R wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  have hst1 : (rowGatherDims N C R wf).start (ix2 k c) idx (1 : Fin 2) = 0 := by
    unfold GatherDims.start
    exact dif_neg (show (1 : Fin 2) ∉ ([0] : List (Fin 2)) from by decide)
  -- the offset coordinate: zero on the collapsed axis 0, the result's column on axis 1
  have hoff0 : (rowGatherDims N C R wf).offCoord (ix2 k c) (0 : Fin 2) = 0 :=
    GatherDims.offCoord_eq_zero _ _ _ (fun h => ((GatherDims.mem_sKept _ _).mp h).1 (List.mem_singleton.mpr rfl))
  have hoff1 : (rowGatherDims N C R wf).offCoord (ix2 k c) (1 : Fin 2) = c.val := by
    unfold GatherDims.offCoord
    rw [dif_pos ((GatherDims.mem_sKept (rowGatherDims N C R wf) (1 : Fin 2)).mpr
      ⟨(show (1 : Fin 2) ∉ ([0] : List (Fin 2)) from by decide), List.not_mem_nil⟩)]
    rfl
  unfold Host.gather
  congr 1
  funext a
  refine Fin.ext ?_
  match a with
  | ⟨0, _⟩ =>
    show (rowGatherDims N C R wf).start (ix2 k c) idx (0 : Fin 2) + (rowGatherDims N C R wf).batchCoord (ix2 k c) (0 : Fin 2)
      + (rowGatherDims N C R wf).offCoord (ix2 k c) (0 : Fin 2) = min (idx (ix2 k (0 : Fin 1))).toInt.toNat (N - 1)
    rw [GatherDims.batchCoord_eq_zero _ _ _ List.not_mem_nil, hst0, hoff0]
    rfl
  | ⟨1, _⟩ =>
    show (rowGatherDims N C R wf).start (ix2 k c) idx (1 : Fin 2) + (rowGatherDims N C R wf).batchCoord (ix2 k c) (1 : Fin 2)
      + (rowGatherDims N C R wf).offCoord (ix2 k c) (1 : Fin 2) = c.val
    rw [GatherDims.batchCoord_eq_zero _ _ _ List.not_mem_nil, hst1, hoff1]
    omega

/-- The same for any dimension numbers whose fields are those of a gather of rows (a printed record's are, each by
    `rfl`). -/
theorem gather_row_apply_of {N C R w : Nat} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (k : Fin R) (c : Fin C) :
    Host.gather d x idx (ix2 k c)
      = x (ix2 ⟨min (idx (ix2 k (0 : Fin 1))).toInt.toNat (N - 1), by omega⟩ c) := by
  obtain ⟨od, cd, ob, sb, sm, iv, ss, wf⟩ := d
  dsimp only at h1 h2 h3 h4 h5 h6 h7
  subst h1 h2 h3 h4 h5 h6 h7
  exact gather_row_apply hN wf x idx k c

end RowGather

/-! ## A scatter that adds rows -/

/-- An axis is among a shape's kept axes exactly when it is not among the removed ones. -/
theorem mem_kept {s : Shape} (axes : List (Fin s.rank)) (a : Fin s.rank) : a ∈ s.kept axes ↔ a ∉ axes := by
  simp [Shape.kept, List.mem_filter, List.mem_finRange]

/-- The dimension numbers of a scatter of whole rows: operand `[N, C]`, scatter indices `[R, 1]` (one row number
    per update row), updates `[R, C]`; axis 0 of the operand is the inserted, indexed axis, axis 1 of the updates
    is the window axis. -/
abbrev rowScatterDims (N C R : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window of update row `k` starts, on the operand's axis 0, at the scatter index `idx[k, 0]` read signed. -/
theorem rowScatter_start0 {N C R w : Nat}
    (wf : ScatterDims.WF ⟨2, ![N, C]⟩ ⟨2, ![R, 1]⟩ ⟨2, ![R, C]⟩ [1] [0] [0] 1)
    (idx : IVec ⟨2, ![R, 1]⟩ w) (k : Fin R) (c : Fin C) :
    (rowScatterDims N C R wf).start (ix2 k c) idx (0 : Fin 2) = (idx (ix2 k (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 k c) ⟨List.idxOf (0 : Fin 2) (rowScatterDims N C R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- On the operand's axis 1, which the scatter indices do not address, the window starts at zero. -/
theorem rowScatter_start1 {N C R w : Nat}
    (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N C R wf).start j idx (1 : Fin 2) = 0 := by
  unfold ScatterDims.start
  exact dif_neg (show (1 : Fin 2) ∉ ([0] : List (Fin 2)) from by decide)

/-- The window coordinate on the inserted axis 0 is zero. -/
theorem rowScatter_window0 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (0 : Fin 2) = 0 := by
  unfold ScatterDims.window
  exact dif_neg (fun h => ((mem_kept _ _).mp h) (List.mem_singleton.mpr rfl))

/-- The window coordinate on axis 1 is the update's column. -/
theorem rowScatter_window1 {N C R : Nat}
    (wf : ScatterDims.WF ⟨2, ![N, C]⟩ ⟨2, ![R, 1]⟩ ⟨2, ![R, C]⟩ [1] [0] [0] 1)
    (j : (⟨2, ![R, C]⟩ : Shape).Idx) :
    (rowScatterDims N C R wf).window j (1 : Fin 2) = (j 1).val := by
  have h1k : (1 : Fin 2) ∈ (rowScatterDims N C R wf).sKept :=
    (mem_kept _ _).mpr (show (1 : Fin 2) ∉ ([0] : List (Fin 2)) from by decide)
  unfold ScatterDims.window
  rw [dif_pos h1k]
  rfl

/-- Update element `(k, c')` lands on operand element `(v, c)` exactly when row `k`'s scatter index, read signed, is
    `v` and the columns agree (an index that is not a row number lands nowhere). -/
theorem rowScatter_resultIdx?_eq_some {N C R w : Nat}
    (wf : ScatterDims.WF ⟨2, ![N, C]⟩ ⟨2, ![R, 1]⟩ ⟨2, ![R, C]⟩ [1] [0] [0] 1)
    (idx : IVec ⟨2, ![R, 1]⟩ w) (k : Fin R) (c' : Fin C) (v : Fin N) (c : Fin C) :
    (rowScatterDims N C R wf).resultIdx? (ix2 k c') idx = some (ix2 v c)
      ↔ (idx (ix2 k (0 : Fin 1))).toInt = (v.val : Int) ∧ c' = c := by
  have hs0 := rowScatter_start0 wf idx k c'
  have hs1 := rowScatter_start1 wf idx (ix2 k c')
  have hw0 := rowScatter_window0 wf (ix2 k c')
  have hw1 : (rowScatterDims N C R wf).window (ix2 k c') (1 : Fin 2) = c'.val := rowScatter_window1 wf (ix2 k c')
  have hv := v.isLt
  have hc' := c'.isLt
  unfold ScatterDims.resultIdx?
  split
  · rename_i h
    rw [Option.some.injEq]
    constructor
    · intro hf
      have h0 : ((rowScatterDims N C R wf).start (ix2 k c') idx (0 : Fin 2)
          + ((rowScatterDims N C R wf).window (ix2 k c') (0 : Fin 2) : Int)).toNat = v.val :=
        congrArg Fin.val (congrFun hf (0 : Fin 2))
      have h1 : ((rowScatterDims N C R wf).start (ix2 k c') idx (1 : Fin 2)
          + ((rowScatterDims N C R wf).window (ix2 k c') (1 : Fin 2) : Int)).toNat = c.val :=
        congrArg Fin.val (congrFun hf (1 : Fin 2))
      have hh := (h (0 : Fin 2)).1
      rw [hs0, hw0] at h0 hh
      rw [hs1, hw1] at h1
      exact ⟨by omega, Fin.ext (by omega)⟩
    · rintro ⟨hv', hcc⟩
      have hcv : c'.val = c.val := congrArg Fin.val hcc
      funext a
      refine Fin.ext ?_
      match a with
      | ⟨0, _⟩ =>
        show ((rowScatterDims N C R wf).start (ix2 k c') idx (0 : Fin 2)
          + ((rowScatterDims N C R wf).window (ix2 k c') (0 : Fin 2) : Int)).toNat = v.val
        rw [hs0, hw0, hv']; omega
      | ⟨1, _⟩ =>
        show ((rowScatterDims N C R wf).start (ix2 k c') idx (1 : Fin 2)
          + ((rowScatterDims N C R wf).window (ix2 k c') (1 : Fin 2) : Int)).toNat = c.val
        rw [hs1, hw1]; omega
  · rename_i h
    refine iff_of_false (by simp) ?_
    rintro ⟨hv', -⟩
    apply h
    intro a
    match a with
    | ⟨0, _⟩ =>
      show 0 ≤ (rowScatterDims N C R wf).start (ix2 k c') idx (0 : Fin 2)
          + ((rowScatterDims N C R wf).window (ix2 k c') (0 : Fin 2) : Int)
        ∧ (rowScatterDims N C R wf).start (ix2 k c') idx (0 : Fin 2)
          + ((rowScatterDims N C R wf).window (ix2 k c') (0 : Fin 2) : Int) < (N : Int)
      rw [hs0, hw0, hv']; omega
    | ⟨1, _⟩ =>
      show 0 ≤ (rowScatterDims N C R wf).start (ix2 k c') idx (1 : Fin 2)
          + ((rowScatterDims N C R wf).window (ix2 k c') (1 : Fin 2) : Int)
        ∧ (rowScatterDims N C R wf).start (ix2 k c') idx (1 : Fin 2)
          + ((rowScatterDims N C R wf).window (ix2 k c') (1 : Fin 2) : Int) < (C : Int)
      rw [hs1, hw1]; omega

/-- THE ROW SCATTER-ADD READ AT `(v, c)`, at the ideal instance: the operand's element plus column `c` of every
    update row whose scatter index, read signed, is `v`. -/
theorem scatterAdd_row_apply {N C R w : Nat}
    (wf : ScatterDims.WF ⟨2, ![N, C]⟩ ⟨2, ![R, 1]⟩ ⟨2, ![R, C]⟩ [1] [0] [0] 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) (rowScatterDims N C R wf) x idx upd (ix2 v c)
      = x (ix2 v c) + ∑ k : Fin R, if (idx (ix2 k (0 : Fin 1))).toInt = (v.val : Int) then upd (ix2 k c) else 0 := by
  show Ideal.hostScatterAdd (rowScatterDims N C R wf) x idx upd (ix2 v c) = _
  unfold Ideal.hostScatterAdd
  congr 1
  rw [Finset.sum_filter, sum_idx2]
  refine Finset.sum_congr rfl fun k _ => ?_
  simp only [rowScatter_resultIdx?_eq_some]
  by_cases hk : (idx (ix2 k (0 : Fin 1))).toInt = (v.val : Int)
  · have hcg : ∀ b : Fin C, (if (idx (ix2 k (0 : Fin 1))).toInt = (v.val : Int) ∧ b = c then upd (ix2 k b) else 0)
        = if b = c then upd (ix2 k b) else 0 := fun b => if_congr (and_iff_right hk) rfl rfl
    rw [if_pos hk, Finset.sum_congr rfl (fun b _ => hcg b),
      Finset.sum_ite_eq' Finset.univ c (fun b => upd (ix2 k b)), if_pos (Finset.mem_univ c)]
  · rw [if_neg hk]
    exact Finset.sum_eq_zero fun b _ => if_neg (fun h => hk h.1)

/-- The same for any dimension numbers whose fields are those of a scatter of rows. -/
theorem scatterAdd_row_apply_of {N C R w : Nat} (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1) {φ : FTy}
    (x : FVec Ideal ⟨2, ![N, C]⟩ φ) (idx : IVec ⟨2, ![R, 1]⟩ w) (upd : FVec Ideal ⟨2, ![R, C]⟩ φ)
    (v : Fin N) (c : Fin C) :
    Host.scatterAdd (F := Ideal) d x idx upd (ix2 v c)
      = x (ix2 v c) + ∑ k : Fin R, if (idx (ix2 k (0 : Fin 1))).toInt = (v.val : Int) then upd (ix2 k c) else 0 := by
  obtain ⟨uw, iw, sd, iv, wf⟩ := d
  dsimp only at h1 h2 h3 h4
  subst h1 h2 h3 h4
  exact scatterAdd_row_apply wf x idx upd v c

/-! ## A scatter that adds scalars into a vector -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars into a vector: operand `[N]`, scatter indices `[R, 1]`, updates
    `[R]`; the operand's one axis is inserted and indexed, the updates have no window axis. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `k`'s one-element window starts at the scatter index `idx[k, 0]` read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (k : Fin R) :
    (vecScatterDims N R wf).start (ix1 k) idx (0 : Fin 1) = (idx (ix2 k (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 k) ⟨List.idxOf (0 : Fin 1) (vecScatterDims N R wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The window coordinate on the operand's one, inserted axis is zero. -/
theorem vecScatter_window {N R : Nat}
    (wf : ScatterDims.WF ⟨1, ![N]⟩ ⟨2, ![R, 1]⟩ ⟨1, ![R]⟩ [] [0] [0] 1)
    (j : (⟨1, ![R]⟩ : Shape).Idx) :
    (vecScatterDims N R wf).window j (0 : Fin 1) = 0 := by
  unfold ScatterDims.window
  exact dif_neg (fun h => ((mem_kept _ _).mp h) (List.mem_singleton.mpr rfl))

/-- Update `k` lands on operand element `v` exactly when its scatter index, read signed, is `v`. -/
theorem vecScatter_resultIdx?_eq_some {N R w : Nat}
    (wf : ScatterDims.WF ⟨1, ![N]⟩ ⟨2, ![R, 1]⟩ ⟨1, ![R]⟩ [] [0] [0] 1)
    (idx : IVec ⟨2, ![R, 1]⟩ w) (k : Fin R) (v : Fin N) :
    (vecScatterDims N R wf).resultIdx? (ix1 k) idx = some (ix1 v)
      ↔ (idx (ix2 k (0 : Fin 1))).toInt = (v.val : Int) := by
  have hs0 := vecScatter_start wf idx k
  have hw0 := vecScatter_window wf (ix1 k)
  have hv := v.isLt
  unfold ScatterDims.resultIdx?
  split
  · rename_i h
    rw [Option.some.injEq]
    constructor
    · intro hf
      have h0 : ((vecScatterDims N R wf).start (ix1 k) idx (0 : Fin 1)
          + ((vecScatterDims N R wf).window (ix1 k) (0 : Fin 1) : Int)).toNat = v.val :=
        congrArg Fin.val (congrFun hf (0 : Fin 1))
      have hh := (h (0 : Fin 1)).1
      rw [hs0, hw0] at h0 hh
      omega
    · intro hv'
      funext a
      refine Fin.ext ?_
      match a with
      | ⟨0, _⟩ =>
        show ((vecScatterDims N R wf).start (ix1 k) idx (0 : Fin 1)
          + ((vecScatterDims N R wf).window (ix1 k) (0 : Fin 1) : Int)).toNat = v.val
        rw [hs0, hw0, hv']; omega
  · rename_i h
    refine iff_of_false (by simp) ?_
    intro hv'
    apply h
    intro a
    match a with
    | ⟨0, _⟩ =>
      show 0 ≤ (vecScatterDims N R wf).start (ix1 k) idx (0 : Fin 1)
          + ((vecScatterDims N R wf).window (ix1 k) (0 : Fin 1) : Int)
        ∧ (vecScatterDims N R wf).start (ix1 k) idx (0 : Fin 1)
          + ((vecScatterDims N R wf).window (ix1 k) (0 : Fin 1) : Int) < (N : Int)
      rw [hs0, hw0, hv']; omega

/-- THE SCALAR SCATTER-ADD READ AT `v`, at the ideal instance: the operand's element plus every update whose scatter
    index, read signed, is `v`. -/
theorem scatterAdd_vec_apply {N R w : Nat}
    (wf : ScatterDims.WF ⟨1, ![N]⟩ ⟨2, ![R, 1]⟩ ⟨1, ![R]⟩ [] [0] [0] 1) {φ : FTy}
    (x : FVec Ideal ⟨1, ![N]⟩ φ) (idx : IVec ⟨2, ![R, 1]⟩ w) (upd : FVec Ideal ⟨1, ![R]⟩ φ) (v : Fin N) :
    Host.scatterAdd (F := Ideal) (vecScatterDims N R wf) x idx upd (ix1 v)
      = x (ix1 v) + ∑ k : Fin R, if (idx (ix2 k (0 : Fin 1))).toInt = (v.val : Int) then upd (ix1 k) else 0 := by
  show Ideal.hostScatterAdd (vecScatterDims N R wf) x idx upd (ix1 v) = _
  unfold Ideal.hostScatterAdd
  congr 1
  rw [Finset.sum_filter, sum_idx1]
  refine Finset.sum_congr rfl fun k _ => ?_
  simp only [vecScatter_resultIdx?_eq_some]

/-- The same for any dimension numbers whose fields are those of a scatter of scalars into a vector. -/
theorem scatterAdd_vec_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1) {φ : FTy}
    (x : FVec Ideal ⟨1, ![N]⟩ φ) (idx : IVec ⟨2, ![R, 1]⟩ w) (upd : FVec Ideal ⟨1, ![R]⟩ φ) (v : Fin N) :
    Host.scatterAdd (F := Ideal) d x idx upd (ix1 v)
      = x (ix1 v) + ∑ k : Fin R, if (idx (ix2 k (0 : Fin 1))).toInt = (v.val : Int) then upd (ix1 k) else 0 := by
  obtain ⟨uw, iw, sd, iv, wf⟩ := d
  dsimp only at h1 h2 h3 h4
  subst h1 h2 h3 h4
  exact scatterAdd_vec_apply wf x idx upd v

/-! ## Extended-real arithmetic -/

/-- A natural number times an extended real is the repeated sum. -/
theorem natCast_mul_eq_nsmul (n : ℕ) (x : EReal) : ((n : ℝ) : EReal) * x = n • x := by
  induction n with
  | zero => simp
  | succ n ih =>
    have hn : (0 : EReal) ≤ ((n : ℝ) : EReal) := EReal.coe_nonneg.mpr (Nat.cast_nonneg n)
    rw [Nat.cast_succ, EReal.coe_add, EReal.coe_one,
      EReal.right_distrib_of_nonneg (a := ((n : ℝ) : EReal)) (b := 1) (c := x) hn zero_le_one, ih, one_mul, succ_nsmul]

/-- A sum over the indices that satisfy `p` of `A k + x` is the sum of the `A k` plus their number times `x`
    (the count is a sum of ones, so it is nonnegative and multiplication distributes over it). -/
theorem sum_ite_add_const {K : Type*} [Fintype K] (p : K → Prop) [DecidablePred p] (A : K → EReal) (x : EReal) :
    ∑ k, (if p k then A k + x else 0) = (∑ k, if p k then A k else 0) + (∑ k, if p k then (1 : EReal) else 0) * x := by
  classical
  have key : ∀ s : Finset K, ∑ k ∈ s, (if p k then A k + x else 0)
      = (∑ k ∈ s, if p k then A k else 0) + (∑ k ∈ s, if p k then (1 : EReal) else 0) * x := by
    intro s
    induction s using Finset.induction_on with
    | empty => simp
    | insert a s ha ih =>
      rw [Finset.sum_insert ha, Finset.sum_insert ha, Finset.sum_insert ha, ih]
      have hnn : (0 : EReal) ≤ ∑ k ∈ s, if p k then (1 : EReal) else 0 :=
        Finset.sum_nonneg fun k _ => by split <;> simp
      by_cases hp : p a
      · rw [if_pos hp, if_pos hp, if_pos hp, EReal.right_distrib_of_nonneg zero_le_one hnn, one_mul]
        exact add_add_add_comm _ _ _ _
      · rw [if_neg hp, if_neg hp, if_neg hp, zero_add, zero_add, zero_add]
  exact key Finset.univ

end Cert.LibIndex

end
-- ==== Proof.LibCols.lean ====
/-
  A gather of columns and two scatters that set, each read at an index.

  A gather of whole columns of a matrix (one start index per result column), a scatter that replaces whole columns
  of an operand by the columns of an update matrix, and its rank-1 form that replaces scalars of a vector: each is
  read at one element. A scatter whose body returns the update is a left fold of "replace the element the update
  lands on"; where all the updates that land on an element carry one value the order of the fold does not matter,
  and the result at the element is that value, or the operand's element when no update lands there.
-/
import Idealize.ShloMosaic.PureOps.ShapeOps
import Idealize.ShloMosaic.Lib.ValueIdx

namespace Idealize.ShloMosaic.LibCols

open Idealize.ShloMosaic Idealize.ShloMosaic.ValueIdx

/-! ## A left fold read at one point -/

section Fold
variable {κ ι β : Type}

/-- A left fold none of whose steps changes the value at `i` leaves the value at `i`. -/
theorem foldl_apply_of_miss (step : (ι → β) → κ → ι → β) (i : ι) :
    ∀ (l : List κ) (x : ι → β), (∀ n ∈ l, ∀ r, step r n i = r i) → l.foldl step x i = x i := by
  intro l
  induction l with
  | nil => intro x _; rfl
  | cons m l ih =>
    intro x h
    rw [List.foldl_cons, ih (step x m) (fun n hn => h n (List.mem_cons_of_mem _ hn)),
      h m (List.mem_cons.mpr (Or.inl rfl))]

/-- A left fold each of whose steps either puts `b` at `i` (the steps in `P`) or leaves the value at `i` has `b` at
    `i` as soon as one of its steps is in `P`: after the last such step nothing changes there any more. -/
theorem foldl_apply_of_hit (step : (ι → β) → κ → ι → β) (i : ι) (b : β) (P : κ → Prop) :
    ∀ (l : List κ) (x : ι → β), (∀ n ∈ l, P n → ∀ r, step r n i = b) → (∀ n ∈ l, ¬P n → ∀ r, step r n i = r i) →
      (∃ n ∈ l, P n) → l.foldl step x i = b := by
  intro l
  induction l with
  | nil =>
    intro x _ _ h
    obtain ⟨n, hn, _⟩ := h
    exact absurd hn List.not_mem_nil
  | cons m l ih =>
    intro x hP hN hex
    rw [List.foldl_cons]
    have hP' : ∀ n ∈ l, P n → ∀ r, step r n i = b := fun n hn => hP n (List.mem_cons_of_mem _ hn)
    have hN' : ∀ n ∈ l, ¬P n → ∀ r, step r n i = r i := fun n hn => hN n (List.mem_cons_of_mem _ hn)
    by_cases hl : ∃ n ∈ l, P n
    · exact ih _ hP' hN' hl
    · have hm : P m := by
        obtain ⟨n, hn, hpn⟩ := hex
        rcases List.mem_cons.mp hn with rfl | hn'
        · exact hpn
        · exact absurd ⟨n, hn', hpn⟩ hl
      rw [foldl_apply_of_miss step i l _ (fun n hn r => hN' n hn (fun hpn => hl ⟨n, hn, hpn⟩) r)]
      exact hP m (List.mem_cons.mpr (Or.inl rfl)) hm x

end Fold

/-! ## A scatter that sets, for any shapes and dimension numbers -/

section ScatterSet
variable {α : Type} {s si u : Shape} {w : Nat}

/-- A scatter whose body returns the update, read at an element on which no update lands: the operand's element. -/
theorem scatter_set_apply_of_miss (d : ScatterDims s si u) (x : s.Idx → α) (idx : IVec si w) (upd : u.Idx → α)
    (i : s.Idx) (h : ∀ k : u.Idx, d.resultIdx? k idx ≠ some i) :
    Host.scatter d (fun _ b => b) x idx upd i = x i := by
  unfold Host.scatter
  refine foldl_apply_of_miss _ i _ x (fun n _ r => ?_)
  have hn := h (u.rowMajor.symm n)
  dsimp only
  cases hres : d.resultIdx? (u.rowMajor.symm n) idx with
  | none => rfl
  | some i0 => exact if_neg (fun e => hn (by rw [hres, e]))

/-- A scatter whose body returns the update, read at an element on which some update lands, all the updates that
    land there carrying the value `v`: that value, whatever the order the updates are taken in. -/
theorem scatter_set_apply_of_hit (d : ScatterDims s si u) (x : s.Idx → α) (idx : IVec si w) (upd : u.Idx → α)
    (i : s.Idx) (v : α) (hv : ∀ k : u.Idx, d.resultIdx? k idx = some i → upd k = v)
    (hex : ∃ k : u.Idx, d.resultIdx? k idx = some i) :
    Host.scatter d (fun _ b => b) x idx upd i = v := by
  unfold Host.scatter
  refine foldl_apply_of_hit _ i v (fun n => d.resultIdx? (u.rowMajor.symm n) idx = some i) _ x ?_ ?_ ?_
  · intro n _ hn r
    dsimp only
    rw [hn]
    exact (if_pos rfl).trans (hv _ hn)
  · intro n _ hn r
    dsimp only
    cases hres : d.resultIdx? (u.rowMajor.symm n) idx with
    | none => rfl
    | some i0 => exact if_neg (fun e => hn (by rw [hres, e]))
  · obtain ⟨k, hk⟩ := hex
    exact ⟨u.rowMajor k, List.mem_finRange _, by rw [Equiv.symm_apply_apply]; exact hk⟩

end ScatterSet

/-- An axis is among a shape's kept axes exactly when it is not among the removed ones. -/
theorem mem_kept_iff {s : Shape} (axes : List (Fin s.rank)) (a : Fin s.rank) : a ∈ s.kept axes ↔ a ∉ axes := by
  simp [Shape.kept, List.mem_filter, List.mem_finRange]

/-! ## A gather of columns -/

section ColGather
variable {α : Type}

/-- The dimension numbers of a gather of whole columns: operand `[B, N]`, start indices `[R, 1]` (one column number
    per result column), result `[B, R]`; axis 1 of the operand is collapsed and indexed, axis 0 is the offset axis,
    the slice is one whole column. The conditions `wf` are decided on a program's literal shapes. -/
abbrev colGatherDims (B N R : Nat)
    (wf : GatherDims.WF ⟨2, ![B, N]⟩ ⟨2, ![R, 1]⟩ ⟨2, ![B, R]⟩ [0] [1] [] [1] [] 1 ![B, 1]) :
    GatherDims ⟨2, ![B, N]⟩ ⟨2, ![R, 1]⟩ ⟨2, ![B, R]⟩ where
  offsetDims := [0]
  collapsedSliceDims := [1]
  operandBatchingDims := []
  startIndicesBatchingDims := []
  startIndexMap := [1]
  indexVectorDim := 1
  sliceSizes := ![B, 1]
  wf := wf

/-- THE COLUMN GATHER READ AT `(r, j)`: row `r` of the operand's column whose number is the start index
    `idx[j, 0]`, read signed and clamped into `[0, N − 1]`. -/
theorem gather_col_apply {B N R w : Nat} (hN : 0 < N)
    (wf : GatherDims.WF ⟨2, ![B, N]⟩ ⟨2, ![R, 1]⟩ ⟨2, ![B, R]⟩ [0] [1] [] [1] [] 1 ![B, 1])
    (x : (⟨2, ![B, N]⟩ : Shape).Idx → α) (idx : IVec ⟨2, ![R, 1]⟩ w) (r : Fin B) (j : Fin R) :
    Host.gather (colGatherDims B N R wf) x idx (ix2 r j)
      = x (ix2 r ⟨min (idx (ix2 j (0 : Fin 1))).toInt.toNat (N - 1), by omega⟩) := by
  -- the start on axis 1: the clamped start index; on axis 0 (not in the start index map): zero
  have hst1 : (colGatherDims B N R wf).start (ix2 r j) idx (1 : Fin 2)
      = min (idx (ix2 j (0 : Fin 1))).toInt.toNat (N - 1) := by
    unfold GatherDims.start
    rw [dif_pos (show (1 : Fin 2) ∈ (colGatherDims B N R wf).startIndexMap from List.mem_singleton.mpr rfl)]
    have hsi : (colGatherDims B N R wf).siIdx (ix2 r j) ⟨List.idxOf (1 : Fin 2) (colGatherDims B N R wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl
  have hst0 : (colGatherDims B N R wf).start (ix2 r j) idx (0 : Fin 2) = 0 := by
    unfold GatherDims.start
    exact dif_neg (show (0 : Fin 2) ∉ ([1] : List (Fin 2)) from by decide)
  -- the offset coordinate: zero on the collapsed axis 1, the result's row on axis 0
  have hoff1 : (colGatherDims B N R wf).offCoord (ix2 r j) (1 : Fin 2) = 0 :=
    GatherDims.offCoord_eq_zero _ _ _ (fun h => ((GatherDims.mem_sKept _ _).mp h).1 (List.mem_singleton.mpr rfl))
  have hoff0 : (colGatherDims B N R wf).offCoord (ix2 r j) (0 : Fin 2) = r.val := by
    unfold GatherDims.offCoord
    rw [dif_pos ((GatherDims.mem_sKept (colGatherDims B N R wf) (0 : Fin 2)).mpr
      ⟨(show (0 : Fin 2) ∉ ([1] : List (Fin 2)) from by decide), List.not_mem_nil⟩)]
    rfl
  unfold Host.gather
  congr 1
  funext a
  refine Fin.ext ?_
  match a with
  | ⟨0, _⟩ =>
    show (colGatherDims B N R wf).start (ix2 r j) idx (0 : Fin 2) + (colGatherDims B N R wf).batchCoord (ix2 r j) (0 : Fin 2)
      + (colGatherDims B N R wf).offCoord (ix2 r j) (0 : Fin 2) = r.val
    rw [GatherDims.batchCoord_eq_zero _ _ _ List.not_mem_nil, hst0, hoff0]
    omega
  | ⟨1, _⟩ =>
    show (colGatherDims B N R wf).start (ix2 r j) idx (1 : Fin 2) + (colGatherDims B N R wf).batchCoord (ix2 r j) (1 : Fin 2)
      + (colGatherDims B N R wf).offCoord (ix2 r j) (1 : Fin 2) = min (idx (ix2 j (0 : Fin 1))).toInt.toNat (N - 1)
    rw [GatherDims.batchCoord_eq_zero _ _ _ List.not_mem_nil, hst1, hoff1]
    rfl

/-- The same for any dimension numbers whose fields are those of a gather of columns (a printed record's are, each
    by `rfl`). -/
theorem gather_col_apply_of {B N R w : Nat} (hN : 0 < N) (d : GatherDims ⟨2, ![B, N]⟩ ⟨2, ![R, 1]⟩ ⟨2, ![B, R]⟩)
    (h1 : d.offsetDims = [0]) (h2 : d.collapsedSliceDims = [1]) (h3 : d.operandBatchingDims = [])
    (h4 : d.startIndicesBatchingDims = []) (h5 : d.startIndexMap = [1]) (h6 : d.indexVectorDim = 1)
    (h7 : d.sliceSizes = ![B, 1])
    (x : (⟨2, ![B, N]⟩ : Shape).Idx → α) (idx : IVec ⟨2, ![R, 1]⟩ w) (r : Fin B) (j : Fin R) :
    Host.gather d x idx (ix2 r j)
      = x (ix2 r ⟨min (idx (ix2 j (0 : Fin 1))).toInt.toNat (N - 1), by omega⟩) := by
  obtain ⟨od, cd, ob, sb, sm, iv, ss, wf⟩ := d
  dsimp only at h1 h2 h3 h4 h5 h6 h7
  subst h1 h2 h3 h4 h5 h6 h7
  exact gather_col_apply hN wf x idx r j

end ColGather

/-! ## A scatter that sets columns -/

section ColScatter
variable {α : Type}

/-- The dimension numbers of a scatter of whole columns: operand `[O, N]`, scatter indices `[R, 1]` (one column
    number per update column), updates `[O, R]`; axis 1 of the operand is the inserted, indexed axis, axis 0 of the
    updates is the window axis. -/
abbrev colScatterDims (O N R : Nat)
    (wf : ScatterDims.WF ⟨2, ![O, N]⟩ ⟨2, ![R, 1]⟩ ⟨2, ![O, R]⟩ [0] [1] [1] 1) :
    ScatterDims ⟨2, ![O, N]⟩ ⟨2, ![R, 1]⟩ ⟨2, ![O, R]⟩ where
  updateWindowDims := [0]
  insertedWindowDims := [1]
  scatterDimsToOperandDims := [1]
  indexVectorDim := 1
  wf := wf

/-- The window of update column `j` starts, on the operand's axis 1, at the scatter index `idx[j, 0]` read signed. -/
theorem colScatter_start1 {O N R w : Nat}
    (wf : ScatterDims.WF ⟨2, ![O, N]⟩ ⟨2, ![R, 1]⟩ ⟨2, ![O, R]⟩ [0] [1] [1] 1)
    (idx : IVec ⟨2, ![R, 1]⟩ w) (o : Fin O) (j : Fin R) :
    (colScatterDims O N R wf).start (ix2 o j) idx (1 : Fin 2) = (idx (ix2 j (0 : Fin 1))).toInt := by
  unfold ScatterDims.start
  rw [dif_pos (show (1 : Fin 2) ∈ (colScatterDims O N R wf).scatterDimsToOperandDims from List.mem_singleton.mpr rfl)]
  have hsi : (colScatterDims O N R wf).siIdx (ix2 o j) ⟨List.idxOf (1 : Fin 2) (colScatterDims O N R wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- On the operand's axis 0, which the scatter indices do not address, the window starts at zero. -/
theorem colScatter_start0 {O N R w : Nat}
    (wf : ScatterDims.WF ⟨2, ![O, N]⟩ ⟨2, ![R, 1]⟩ ⟨2, ![O, R]⟩ [0] [1] [1] 1)
    (idx : IVec ⟨2, ![R, 1]⟩ w) (k : (⟨2, ![O, R]⟩ : Shape).Idx) :
    (colScatterDims O N R wf).start k idx (0 : Fin 2) = 0 := by
  unfold ScatterDims.start
  exact dif_neg (show (0 : Fin 2) ∉ ([1] : List (Fin 2)) from by decide)

/-- The window coordinate on the inserted axis 1 is zero. -/
theorem colScatter_window1 {O N R : Nat}
    (wf : ScatterDims.WF ⟨2, ![O, N]⟩ ⟨2, ![R, 1]⟩ ⟨2, ![O, R]⟩ [0] [1] [1] 1)
    (k : (⟨2, ![O, R]⟩ : Shape).Idx) :
    (colScatterDims O N R wf).window k (1 : Fin 2) = 0 := by
  unfold ScatterDims.window
  exact dif_neg (fun h => ((mem_kept_iff _ _).mp h) (List.mem_singleton.mpr rfl))

/-- The window coordinate on axis 0 is the update's row. -/
theorem colScatter_window0 {O N R : Nat}
    (wf : ScatterDims.WF ⟨2, ![O, N]⟩ ⟨2, ![R, 1]⟩ ⟨2, ![O, R]⟩ [0] [1] [1] 1)
    (k : (⟨2, ![O, R]⟩ : Shape).Idx) :
    (colScatterDims O N R wf).window k (0 : Fin 2) = (k 0).val := by
  have h0k : (0 : Fin 2) ∈ (colScatterDims O N R wf).sKept :=
    (mem_kept_iff _ _).mpr (show (0 : Fin 2) ∉ ([1] : List (Fin 2)) from by decide)
  unfold ScatterDims.window
  rw [dif_pos h0k]
  rfl

/-- Update element `(o', j)` lands on operand element `(o, c)` exactly when column `j`'s scatter index, read signed,
    is `c` and the rows agree (an index that is not a column number lands nowhere). -/
theorem colScatter_resultIdx?_eq_some {O N R w : Nat}
    (wf : ScatterDims.WF ⟨2, ![O, N]⟩ ⟨2, ![R, 1]⟩ ⟨2, ![O, R]⟩ [0] [1] [1] 1)
    (idx : IVec ⟨2, ![R, 1]⟩ w) (o' : Fin O) (j : Fin R) (o : Fin O) (c : Fin N) :
    (colScatterDims O N R wf).resultIdx? (ix2 o' j) idx = some (ix2 o c)
      ↔ (idx (ix2 j (0 : Fin 1))).toInt = (c.val : Int) ∧ o' = o := by
  have hs1 := colScatter_start1 wf idx o' j
  have hs0 := colScatter_start0 wf idx (ix2 o' j)
  have hw1 := colScatter_window1 wf (ix2 o' j)
  have hw0 : (colScatterDims O N R wf).window (ix2 o' j) (0 : Fin 2) = o'.val := colScatter_window0 wf (ix2 o' j)
  have hc := c.isLt
  have ho' := o'.isLt
  unfold ScatterDims.resultIdx?
  split
  · rename_i h
    rw [Option.some.injEq]
    constructor
    · intro hf
      have h0 : ((colScatterDims O N R wf).start (ix2 o' j) idx (0 : Fin 2)
          + ((colScatterDims O N R wf).window (ix2 o' j) (0 : Fin 2) : Int)).toNat = o.val :=
        congrArg Fin.val (congrFun hf (0 : Fin 2))
      have h1 : ((colScatterDims O N R wf).start (ix2 o' j) idx (1 : Fin 2)
          + ((colScatterDims O N R wf).window (ix2 o' j) (1 : Fin 2) : Int)).toNat = c.val :=
        congrArg Fin.val (congrFun hf (1 : Fin 2))
      have hh := (h (1 : Fin 2)).1
      rw [hs1, hw1] at h1 hh
      rw [hs0, hw0] at h0
      exact ⟨by omega, Fin.ext (by omega)⟩
    · rintro ⟨hc', hoo⟩
      have hov : o'.val = o.val := congrArg Fin.val hoo
      funext a
      refine Fin.ext ?_
      match a with
      | ⟨0, _⟩ =>
        show ((colScatterDims O N R wf).start (ix2 o' j) idx (0 : Fin 2)
          + ((colScatterDims O N R wf).window (ix2 o' j) (0 : Fin 2) : Int)).toNat = o.val
        rw [hs0, hw0]; omega
      | ⟨1, _⟩ =>
        show ((colScatterDims O N R wf).start (ix2 o' j) idx (1 : Fin 2)
          + ((colScatterDims O N R wf).window (ix2 o' j) (1 : Fin 2) : Int)).toNat = c.val
        rw [hs1, hw1, hc']; omega
  · rename_i h
    refine iff_of_false (by simp) ?_
    rintro ⟨hc', -⟩
    apply h
    intro a
    match a with
    | ⟨0, _⟩ =>
      show 0 ≤ (colScatterDims O N R wf).start (ix2 o' j) idx (0 : Fin 2)
          + ((colScatterDims O N R wf).window (ix2 o' j) (0 : Fin 2) : Int)
        ∧ (colScatterDims O N R wf).start (ix2 o' j) idx (0 : Fin 2)
          + ((colScatterDims O N R wf).window (ix2 o' j) (0 : Fin 2) : Int) < (O : Int)
      rw [hs0, hw0]; omega
    | ⟨1, _⟩ =>
      show 0 ≤ (colScatterDims O N R wf).start (ix2 o' j) idx (1 : Fin 2)
          + ((colScatterDims O N R wf).window (ix2 o' j) (1 : Fin 2) : Int)
        ∧ (colScatterDims O N R wf).start (ix2 o' j) idx (1 : Fin 2)
          + ((colScatterDims O N R wf).window (ix2 o' j) (1 : Fin 2) : Int) < (N : Int)
      rw [hs1, hw1, hc']; omega

/-- THE COLUMN SCATTER THAT SETS, READ AT `(o, c)`, the scatter indices pairwise distinct as signed integers: row
    `o` of the update column whose scatter index is `c` when there is one, else the operand's element (an update
    whose index is not a column number is dropped). -/
theorem scatter_col_set_apply {O N R w : Nat}
    (wf : ScatterDims.WF ⟨2, ![O, N]⟩ ⟨2, ![R, 1]⟩ ⟨2, ![O, R]⟩ [0] [1] [1] 1)
    (x : (⟨2, ![O, N]⟩ : Shape).Idx → α) (idx : IVec ⟨2, ![R, 1]⟩ w) (upd : (⟨2, ![O, R]⟩ : Shape).Idx → α)
    (hinj : ∀ j j' : Fin R, (idx (ix2 j (0 : Fin 1))).toInt = (idx (ix2 j' (0 : Fin 1))).toInt → j = j')
    (o : Fin O) (c : Fin N) :
    Host.scatter (colScatterDims O N R wf) (fun _ b => b) x idx upd (ix2 o c)
      = if h : ∃ j : Fin R, (idx (ix2 j (0 : Fin 1))).toInt = (c.val : Int) then upd (ix2 o h.choose)
        else x (ix2 o c) := by
  by_cases h : ∃ j : Fin R, (idx (ix2 j (0 : Fin 1))).toInt = (c.val : Int)
  · rw [dif_pos h]
    refine scatter_set_apply_of_hit _ x idx upd (ix2 o c) _ ?_ ?_
    · intro k hk
      obtain ⟨o', j, rfl⟩ : ∃ o' j, k = ix2 o' j := ⟨k 0, k 1, eq_ix2 k⟩
      obtain ⟨hj, rfl⟩ := (colScatter_resultIdx?_eq_some wf idx o' j o c).mp hk
      rw [hinj j h.choose (hj.trans h.choose_spec.symm)]
    · exact ⟨ix2 o h.choose, (colScatter_resultIdx?_eq_some wf idx o h.choose o c).mpr ⟨h.choose_spec, rfl⟩⟩
  · rw [dif_neg h]
    refine scatter_set_apply_of_miss _ x idx upd (ix2 o c) (fun k hk => h ?_)
    obtain ⟨o', j, rfl⟩ : ∃ o' j, k = ix2 o' j := ⟨k 0, k 1, eq_ix2 k⟩
    exact ⟨j, ((colScatter_resultIdx?_eq_some wf idx o' j o c).mp hk).1⟩

/-- The same for any dimension numbers whose fields are those of a scatter of columns. -/
theorem scatter_col_set_apply_of {O N R w : Nat} (d : ScatterDims ⟨2, ![O, N]⟩ ⟨2, ![R, 1]⟩ ⟨2, ![O, R]⟩)
    (h1 : d.updateWindowDims = [0]) (h2 : d.insertedWindowDims = [1]) (h3 : d.scatterDimsToOperandDims = [1])
    (h4 : d.indexVectorDim = 1)
    (x : (⟨2, ![O, N]⟩ : Shape).Idx → α) (idx : IVec ⟨2, ![R, 1]⟩ w) (upd : (⟨2, ![O, R]⟩ : Shape).Idx → α)
    (hinj : ∀ j j' : Fin R, (idx (ix2 j (0 : Fin 1))).toInt = (idx (ix2 j' (0 : Fin 1))).toInt → j = j')
    (o : Fin O) (c : Fin N) :
    Host.scatter d (fun _ b => b) x idx upd (ix2 o c)
      = if h : ∃ j : Fin R, (idx (ix2 j (0 : Fin 1))).toInt = (c.val : Int) then upd (ix2 o h.choose)
        else x (ix2 o c) := by
  obtain ⟨uw, iw, sd, iv, wf⟩ := d
  dsimp only at h1 h2 h3 h4
  subst h1 h2 h3 h4
  exact scatter_col_set_apply wf x idx upd hinj o c

end ColScatter

/-! ## A scatter that sets scalars of a vector -/

section VecScatter
variable {α : Type}

/-- The dimension numbers of a scatter of scalars into a vector: operand `[N]`, scatter indices `[R, 1]`, updates
    `[R]`; the operand's one axis is inserted and indexed, the updates have no window axis. -/
abbrev vecSetDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Update `j`'s one-element window starts at the scatter index `idx[j, 0]` read signed. -/
theorem vecSet_start {N R w : Nat}
    (wf : ScatterDims.WF ⟨1, ![N]⟩ ⟨2, ![R, 1]⟩ ⟨1, ![R]⟩ [] [0] [0] 1)
    (idx : IVec ⟨2, ![R, 1]⟩ w) (j : Fin R) :
    (vecSetDims N R wf).start (ix1 j) idx (0 : Fin 1) = (idx (ix2 j (0 : Fin 1))).toInt := by
  unfold ScatterDims.start
  rw [dif_pos (show (0 : Fin 1) ∈ (vecSetDims N R wf).scatterDimsToOperandDims from List.mem_singleton.mpr rfl)]
  have hsi : (vecSetDims N R wf).siIdx (ix1 j) ⟨List.idxOf (0 : Fin 1) (vecSetDims N R wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- The window coordinate on the operand's one, inserted axis is zero. -/
theorem vecSet_window {N R : Nat}
    (wf : ScatterDims.WF ⟨1, ![N]⟩ ⟨2, ![R, 1]⟩ ⟨1, ![R]⟩ [] [0] [0] 1)
    (k : (⟨1, ![R]⟩ : Shape).Idx) :
    (vecSetDims N R wf).window k (0 : Fin 1) = 0 := by
  unfold ScatterDims.window
  exact dif_neg (fun h => ((mem_kept_iff _ _).mp h) (List.mem_singleton.mpr rfl))

/-- Update `j` lands on operand element `c` exactly when its scatter index, read signed, is `c`. -/
theorem vecSet_resultIdx?_eq_some {N R w : Nat}
    (wf : ScatterDims.WF ⟨1, ![N]⟩ ⟨2, ![R, 1]⟩ ⟨1, ![R]⟩ [] [0] [0] 1)
    (idx : IVec ⟨2, ![R, 1]⟩ w) (j : Fin R) (c : Fin N) :
    (vecSetDims N R wf).resultIdx? (ix1 j) idx = some (ix1 c)
      ↔ (idx (ix2 j (0 : Fin 1))).toInt = (c.val : Int) := by
  have hs0 := vecSet_start wf idx j
  have hw0 := vecSet_window wf (ix1 j)
  have hc := c.isLt
  unfold ScatterDims.resultIdx?
  split
  · rename_i h
    rw [Option.some.injEq]
    constructor
    · intro hf
      have h0 : ((vecSetDims N R wf).start (ix1 j) idx (0 : Fin 1)
          + ((vecSetDims N R wf).window (ix1 j) (0 : Fin 1) : Int)).toNat = c.val :=
        congrArg Fin.val (congrFun hf (0 : Fin 1))
      have hh := (h (0 : Fin 1)).1
      rw [hs0, hw0] at h0 hh
      omega
    · intro hc'
      funext a
      refine Fin.ext ?_
      match a with
      | ⟨0, _⟩ =>
        show ((vecSetDims N R wf).start (ix1 j) idx (0 : Fin 1)
          + ((vecSetDims N R wf).window (ix1 j) (0 : Fin 1) : Int)).toNat = c.val
        rw [hs0, hw0, hc']; omega
  · rename_i h
    refine iff_of_false (by simp) ?_
    intro hc'
    apply h
    intro a
    match a with
    | ⟨0, _⟩ =>
      show 0 ≤ (vecSetDims N R wf).start (ix1 j) idx (0 : Fin 1)
          + ((vecSetDims N R wf).window (ix1 j) (0 : Fin 1) : Int)
        ∧ (vecSetDims N R wf).start (ix1 j) idx (0 : Fin 1)
          + ((vecSetDims N R wf).window (ix1 j) (0 : Fin 1) : Int) < (N : Int)
      rw [hs0, hw0, hc']; omega

/-- THE SCALAR SCATTER THAT SETS, READ AT `c`, the scatter indices pairwise distinct as signed integers: the update
    whose scatter index is `c` when there is one, else the operand's element (an update whose index is not a position
    of the vector is dropped). -/
theorem scatter_vec_set_apply {N R w : Nat}
    (wf : ScatterDims.WF ⟨1, ![N]⟩ ⟨2, ![R, 1]⟩ ⟨1, ![R]⟩ [] [0] [0] 1)
    (x : (⟨1, ![N]⟩ : Shape).Idx → α) (idx : IVec ⟨2, ![R, 1]⟩ w) (upd : (⟨1, ![R]⟩ : Shape).Idx → α)
    (hinj : ∀ j j' : Fin R, (idx (ix2 j (0 : Fin 1))).toInt = (idx (ix2 j' (0 : Fin 1))).toInt → j = j')
    (c : Fin N) :
    Host.scatter (vecSetDims N R wf) (fun _ b => b) x idx upd (ix1 c)
      = if h : ∃ j : Fin R, (idx (ix2 j (0 : Fin 1))).toInt = (c.val : Int) then upd (ix1 h.choose)
        else x (ix1 c) := by
  by_cases h : ∃ j : Fin R, (idx (ix2 j (0 : Fin 1))).toInt = (c.val : Int)
  · rw [dif_pos h]
    refine scatter_set_apply_of_hit _ x idx upd (ix1 c) _ ?_ ?_
    · intro k hk
      obtain ⟨j, rfl⟩ : ∃ j, k = ix1 j := ⟨k 0, eq_ix1 k⟩
      have hj := (vecSet_resultIdx?_eq_some wf idx j c).mp hk
      rw [hinj j h.choose (hj.trans h.choose_spec.symm)]
    · exact ⟨ix1 h.choose, (vecSet_resultIdx?_eq_some wf idx h.choose c).mpr h.choose_spec⟩
  · rw [dif_neg h]
    refine scatter_set_apply_of_miss _ x idx upd (ix1 c) (fun k hk => h ?_)
    obtain ⟨j, rfl⟩ : ∃ j, k = ix1 j := ⟨k 0, eq_ix1 k⟩
    exact ⟨j, (vecSet_resultIdx?_eq_some wf idx j c).mp hk⟩

/-- The same for any dimension numbers whose fields are those of a scatter of scalars into a vector. -/
theorem scatter_vec_set_apply_of {N R w : Nat} (d : ScatterDims ⟨1, ![N]⟩ ⟨2, ![R, 1]⟩ ⟨1, ![R]⟩)
    (h1 : d.updateWindowDims = []) (h2 : d.insertedWindowDims = [0]) (h3 : d.scatterDimsToOperandDims = [0])
    (h4 : d.indexVectorDim = 1)
    (x : (⟨1, ![N]⟩ : Shape).Idx → α) (idx : IVec ⟨2, ![R, 1]⟩ w) (upd : (⟨1, ![R]⟩ : Shape).Idx → α)
    (hinj : ∀ j j' : Fin R, (idx (ix2 j (0 : Fin 1))).toInt = (idx (ix2 j' (0 : Fin 1))).toInt → j = j')
    (c : Fin N) :
    Host.scatter d (fun _ b => b) x idx upd (ix1 c)
      = if h : ∃ j : Fin R, (idx (ix2 j (0 : Fin 1))).toInt = (c.val : Int) then upd (ix1 h.choose)
        else x (ix1 c) := by
  obtain ⟨uw, iw, sd, iv, wf⟩ := d
  dsimp only at h1 h2 h3 h4
  subst h1 h2 h3 h4
  exact scatter_vec_set_apply wf x idx upd hinj c

end VecScatter

end Idealize.ShloMosaic.LibCols
-- ==== Proof.LibColsAdd.lean ====
/-
  Two host operations along the column axis of a matrix, each read at one element.

  A gather of whole columns by a rank-3 array of start indices: the operand is `[B, N]`, the start indices
  `[S, E, 1]` (one column number per pair `(s, e)`), the result `[B, S, E]`: what `x[:, idx]` lowers to for a rank-2
  index table. Entry `(b, s, e)` of the result is row `b` of the operand's column whose number is the start index
  `idx[s, e, 0]`, read signed and clamped into `[0, N − 1]`.

  A scatter that adds whole columns: the operand is `[O, N]`, the scatter indices `[R, 1]` (one column number per
  update column), the updates `[O, R]`: what `x.at[:, idx].add(u)` lowers to. At the ideal instance, where a float
  is an extended real and the accumulation is the exact sum, entry `(o, c)` of the result is the operand's entry
  plus row `o` of every update column whose scatter index, read signed, is `c`.
-/
import proofs.«172628_j72885595013444_1_alg».proof.Proof.LibCols
import Idealize.ShloMosaic.PureOps.Ideal
import Idealize.ShloMosaic.Lib.ValueIdx
import Mathlib.Algebra.BigOperators.Group.Finset.Basic
import Mathlib.Algebra.BigOperators.Group.Finset.Piecewise

noncomputable section

open scoped BigOperators

namespace Cert.LibColsAdd

open Idealize.ShloMosaic Idealize.ShloMosaic.ValueIdx Idealize.ShloMosaic.LibCols

/-! ## A gather of columns by a rank-3 index array -/

/-- The dimension numbers of a gather of whole columns by a rank-3 index array: operand `[B, N]`, start indices
    `[S, E, 1]`, result `[B, S, E]`; axis 1 of the operand is collapsed and indexed, axis 0 is the offset axis
    (axis 0 of the result), the slice is one whole column. -/
abbrev cols3GatherDims (B N S E : Nat)
    (wf : GatherDims.WF ⟨2, ![B, N]⟩ ⟨3, ![S, E, 1]⟩ ⟨3, ![B, S, E]⟩ [0] [1] [] [1] [] 2 ![B, 1]) :
    GatherDims ⟨2, ![B, N]⟩ ⟨3, ![S, E, 1]⟩ ⟨3, ![B, S, E]⟩ where
  offsetDims := [0]
  collapsedSliceDims := [1]
  operandBatchingDims := []
  startIndicesBatchingDims := []
  startIndexMap := [1]
  indexVectorDim := 2
  sliceSizes := ![B, 1]
  wf := wf

/-- The gather read at `(b, s, e)` for the literal record: row `b` of the operand's column whose number is the
    start index `idx[s, e, 0]`, read signed and clamped into `[0, N − 1]`. -/
theorem gather_cols3_apply {α : Type} {B N S E w : Nat} (hN : 0 < N)
    (wf : GatherDims.WF ⟨2, ![B, N]⟩ ⟨3, ![S, E, 1]⟩ ⟨3, ![B, S, E]⟩ [0] [1] [] [1] [] 2 ![B, 1])
    (x : (⟨2, ![B, N]⟩ : Shape).Idx → α) (idx : IVec ⟨3, ![S, E, 1]⟩ w) (b : Fin B) (s : Fin S) (e : Fin E) :
    Host.gather (cols3GatherDims B N S E wf) x idx (ix3 b s e)
      = x (ix2 b ⟨min (idx (ix3 s e (0 : Fin 1))).toInt.toNat (N - 1), by omega⟩) := by
  -- on axis 1 the slice starts at the clamped start index; on axis 0, which no start index addresses, at zero
  have hst1 : (cols3GatherDims B N S E wf).start (ix3 b s e) idx (1 : Fin 2)
      = min (idx (ix3 s e (0 : Fin 1))).toInt.toNat (N - 1) := by
    unfold GatherDims.start
    rw [dif_pos (show (1 : Fin 2) ∈ (cols3GatherDims B N S E wf).startIndexMap from List.mem_singleton.mpr rfl)]
    have hsi : (cols3GatherDims B N S E wf).siIdx (ix3 b s e)
        ⟨List.idxOf (1 : Fin 2) (cols3GatherDims B N S E wf).startIndexMap,
          List.idxOf_lt_length_iff.2 (List.mem_singleton.mpr rfl)⟩ = ix3 s e (0 : Fin 1) := by
      funext a; refine Fin.ext ?_
      match a with
      | ⟨0, _⟩ => rfl
      | ⟨1, _⟩ => rfl
      | ⟨2, _⟩ => rfl
    rw [hsi]
    rfl
  have hst0 : (cols3GatherDims B N S E wf).start (ix3 b s e) idx (0 : Fin 2) = 0 := by
    unfold GatherDims.start
    exact dif_neg (show (0 : Fin 2) ∉ ([1] : List (Fin 2)) from by decide)
  -- the offset inside the slice: zero on the collapsed axis 1, the result's row on axis 0
  have hoff1 : (cols3GatherDims B N S E wf).offCoord (ix3 b s e) (1 : Fin 2) = 0 :=
    GatherDims.offCoord_eq_zero _ _ _ (fun h => ((GatherDims.mem_sKept _ _).mp h).1 (List.mem_singleton.mpr rfl))
  have hoff0 : (cols3GatherDims B N S E wf).offCoord (ix3 b s e) (0 : Fin 2) = b.val := by
    unfold GatherDims.offCoord
    rw [dif_pos ((GatherDims.mem_sKept (cols3GatherDims B N S E wf) (0 : Fin 2)).mpr
      ⟨(show (0 : Fin 2) ∉ ([1] : List (Fin 2)) from by decide), List.not_mem_nil⟩)]
    rfl
  unfold Host.gather
  congr 1
  funext a
  refine Fin.ext ?_
  match a with
  | ⟨0, _⟩ =>
    show (cols3GatherDims B N S E wf).start (ix3 b s e) idx (0 : Fin 2)
      + (cols3GatherDims B N S E wf).batchCoord (ix3 b s e) (0 : Fin 2)
      + (cols3GatherDims B N S E wf).offCoord (ix3 b s e) (0 : Fin 2) = b.val
    rw [GatherDims.batchCoord_eq_zero _ _ _ List.not_mem_nil, hst0, hoff0]
    omega
  | ⟨1, _⟩ =>
    show (cols3GatherDims B N S E wf).start (ix3 b s e) idx (1 : Fin 2)
      + (cols3GatherDims B N S E wf).batchCoord (ix3 b s e) (1 : Fin 2)
      + (cols3GatherDims B N S E wf).offCoord (ix3 b s e) (1 : Fin 2)
      = min (idx (ix3 s e (0 : Fin 1))).toInt.toNat (N - 1)
    rw [GatherDims.batchCoord_eq_zero _ _ _ List.not_mem_nil, hst1, hoff1]
    rfl

/-- THE GATHER OF COLUMNS BY A RANK-3 INDEX ARRAY READ AT `(b, s, e)`, for any dimension numbers whose fields are
    those of such a gather (a printed record's are, each by `rfl`). -/
theorem gather_cols3_apply_of {α : Type} {B N S E w : Nat} (hN : 0 < N)
    (d : GatherDims ⟨2, ![B, N]⟩ ⟨3, ![S, E, 1]⟩ ⟨3, ![B, S, E]⟩)
    (h1 : d.offsetDims = [0]) (h2 : d.collapsedSliceDims = [1]) (h3 : d.operandBatchingDims = [])
    (h4 : d.startIndicesBatchingDims = []) (h5 : d.startIndexMap = [1]) (h6 : d.indexVectorDim = 2)
    (h7 : d.sliceSizes = ![B, 1])
    (x : (⟨2, ![B, N]⟩ : Shape).Idx → α) (idx : IVec ⟨3, ![S, E, 1]⟩ w) (b : Fin B) (s : Fin S) (e : Fin E) :
    Host.gather d x idx (ix3 b s e)
      = x (ix2 b ⟨min (idx (ix3 s e (0 : Fin 1))).toInt.toNat (N - 1), by omega⟩) := by
  obtain ⟨od, cd, ob, sb, sm, iv, ss, wf⟩ := d
  dsimp only at h1 h2 h3 h4 h5 h6 h7
  subst h1 h2 h3 h4 h5 h6 h7
  exact gather_cols3_apply hN wf x idx b s e

/-! ## A scatter that adds columns -/

/-- THE COLUMN SCATTER-ADD READ AT `(o, c)`, at the ideal instance: the operand's element plus row `o` of every
    update column whose scatter index, read signed, is `c`. -/
theorem scatterAdd_col_apply {O N R w : Nat}
    (wf : ScatterDims.WF ⟨2, ![O, N]⟩ ⟨2, ![R, 1]⟩ ⟨2, ![O, R]⟩ [0] [1] [1] 1) {φ : FTy}
    (x : FVec Ideal ⟨2, ![O, N]⟩ φ) (idx : IVec ⟨2, ![R, 1]⟩ w) (upd : FVec Ideal ⟨2, ![O, R]⟩ φ)
    (o : Fin O) (c : Fin N) :
    Host.scatterAdd (F := Ideal) (colScatterDims O N R wf) x idx upd (ix2 o c)
      = x (ix2 o c) + ∑ j : Fin R, if (idx (ix2 j (0 : Fin 1))).toInt = (c.val : Int) then upd (ix2 o j) else 0 := by
  show Ideal.hostScatterAdd (colScatterDims O N R wf) x idx upd (ix2 o c) = _
  unfold Ideal.hostScatterAdd
  congr 1
  -- the updates that land on (o, c), summed column by column: in column j only row o can land there
  rw [Finset.sum_filter, sum_idx2, Finset.sum_comm]
  refine Finset.sum_congr rfl fun j _ => ?_
  simp only [colScatter_resultIdx?_eq_some]
  by_cases hj : (idx (ix2 j (0 : Fin 1))).toInt = (c.val : Int)
  · have hcg : ∀ o' : Fin O, (if (idx (ix2 j (0 : Fin 1))).toInt = (c.val : Int) ∧ o' = o then upd (ix2 o' j) else 0)
        = if o' = o then upd (ix2 o' j) else 0 := fun o' => if_congr (and_iff_right hj) rfl rfl
    rw [if_pos hj, Finset.sum_congr rfl (fun o' _ => hcg o'),
      Finset.sum_ite_eq' Finset.univ o (fun o' => upd (ix2 o' j)), if_pos (Finset.mem_univ o)]
  · rw [if_neg hj]
    exact Finset.sum_eq_zero fun o' _ => if_neg (fun h => hj h.1)

/-- The same for any dimension numbers whose fields are those of a scatter of columns. -/
theorem scatterAdd_col_apply_of {O N R w : Nat} (d : ScatterDims ⟨2, ![O, N]⟩ ⟨2, ![R, 1]⟩ ⟨2, ![O, R]⟩)
    (h1 : d.updateWindowDims = [0]) (h2 : d.insertedWindowDims = [1]) (h3 : d.scatterDimsToOperandDims = [1])
    (h4 : d.indexVectorDim = 1) {φ : FTy}
    (x : FVec Ideal ⟨2, ![O, N]⟩ φ) (idx : IVec ⟨2, ![R, 1]⟩ w) (upd : FVec Ideal ⟨2, ![O, R]⟩ φ)
    (o : Fin O) (c : Fin N) :
    Host.scatterAdd (F := Ideal) d x idx upd (ix2 o c)
      = x (ix2 o c) + ∑ j : Fin R, if (idx (ix2 j (0 : Fin 1))).toInt = (c.val : Int) then upd (ix2 o j) else 0 := by
  obtain ⟨uw, iw, sd, iv, wf⟩ := d
  dsimp only at h1 h2 h3 h4
  subst h1 h2 h3 h4
  exact scatterAdd_col_apply wf x idx upd o c

end Cert.LibColsAdd

end
-- ==== Proof.Average.lean ====
/-
  The average of copies.

  When every window that covers a column contributes a copy of the column's own entry, the accumulated sum is the
  entry taken as many times as there are covering windows, and the accumulated count of ones is that number; if at
  least one window covers the column the quotient of the two is the entry itself. The entry has to be a real number:
  on the extended reals a sum of infinities over a count is still the infinity, but the law below is stated where it
  is needed, for finite entries, where it is the cancellation `(n · a) / n = a` with `n ≥ 1`.
-/
import Idealize.ShloMosaic.PureOps.Ideal
import Mathlib.Data.EReal.Operations
import Mathlib.Algebra.BigOperators.Group.Finset.Basic
import Mathlib.Algebra.BigOperators.Ring.Finset
import Mathlib.Algebra.Order.BigOperators.Group.Finset
import Mathlib.Tactic.FieldSimp
import Mathlib.Tactic.NormNum
import Mathlib.Tactic.Linarith

noncomputable section

open scoped BigOperators

namespace Cert.Average

open Idealize.ShloMosaic

/-- The coercion of the reals into the extended reals commutes with finite sums. -/
theorem coe_sum {K : Type*} (s : Finset K) (f : K → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- THE AVERAGE OF COPIES: over a finite family of windows, of which those satisfying `p` cover the column and at
    least one does, the sum of one copy of the real `a` per covering window, divided by the sum of one `1` per
    covering window, is `a`. (Both accumulations start from zero, as the scatters' operands do.) -/
theorem sum_copies_div_count {K : Type*} [Fintype K] (p : K → Prop) [DecidablePred p] (hp : ∃ k, p k) (a : ℝ) :
    Ideal.div ((0 : EReal) + ∑ k, if p k then (a : EReal) else 0) ((0 : EReal) + ∑ k, if p k then (1 : EReal) else 0)
      = (a : EReal) := by
  -- the number of covering windows, as a real, is at least one
  have hn1 : (1 : ℝ) ≤ ∑ k, if p k then (1 : ℝ) else 0 := by
    obtain ⟨k0, hk0⟩ := hp
    have h : (if p k0 then (1 : ℝ) else 0) ≤ ∑ k, if p k then (1 : ℝ) else 0 :=
      Finset.single_le_sum (f := fun k => if p k then (1 : ℝ) else 0)
        (fun k _ => by split <;> norm_num) (Finset.mem_univ k0)
    rwa [if_pos hk0] at h
  -- the accumulated copies are that number times a, the accumulated ones are that number
  have hnum : (∑ k, if p k then (a : EReal) else 0) = (((∑ k, if p k then (1 : ℝ) else 0) * a : ℝ) : EReal) := by
    have h1 : ∀ k, (if p k then (a : EReal) else 0) = (((if p k then a else 0) : ℝ) : EReal) := fun k => by
      split <;> simp
    rw [Finset.sum_congr rfl (fun k _ => h1 k), coe_sum, Finset.sum_mul]
    refine congrArg _ (Finset.sum_congr rfl fun k _ => ?_)
    split <;> simp
  have hden : (∑ k, if p k then (1 : EReal) else 0) = (((∑ k, if p k then (1 : ℝ) else 0) : ℝ) : EReal) := by
    have h1 : ∀ k, (if p k then (1 : EReal) else 0) = (((if p k then 1 else 0) : ℝ) : EReal) := fun k => by
      split <;> simp
    rw [Finset.sum_congr rfl (fun k _ => h1 k), coe_sum]
  rw [hnum, hden]
  generalize (∑ k, if p k then (1 : ℝ) else 0) = n at hn1
  have hn0 : n ≠ 0 := by linarith
  rw [zero_add, zero_add, Ideal.div_coe hn0, ← EReal.coe_mul]
  congr 1
  field_simp

end Cert.Average

end
-- ==== Proof.RefValue.lean ====
/-
  The reference computes the identity on finite inputs.

  The reference copies every window's columns out of the input (a gather), adds each copy back onto the column it
  came from (a scatter-add into zeros), counts with a second scatter-add of ones how many copies each column received,
  and divides. Position `r` of the flattened window table names column `col r`, so the copy at `(b, r)` is
  `x[b, col r]`, and the copies that land on column `d` are exactly those with `col r = d`: each of them is
  `x[b, d]` itself. Entry `(b, d)` of the result is therefore `(n · x[b, d]) / n` with `n` the number of positions
  naming `d`, which is at least one; for a real `x[b, d]` that is `x[b, d]`.
-/
import proofs.«172628_j72885595013444_1_alg».proof.Proof.Columns
import proofs.«172628_j72885595013444_1_alg».proof.Proof.LibIndex
import proofs.«172628_j72885595013444_1_alg».proof.Proof.LibColsAdd
import proofs.«172628_j72885595013444_1_alg».proof.Proof.Average
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.Read Cert.ReferenceIdeal.Columns
open Idealize.ShloMosaic Idealize.ShloMosaic.ValueIdx Idealize.ShloMosaic.StableHlo.Predicate

/-- THE GATHERED WINDOWS, FLATTENED: position `(b, r)` holds the input's entry in row `b` and column `col r`
    (the start index `col r` is a column number, so the gather's clamp leaves it). -/
theorem windows_apply (x : FVec Ideal S8192x4096 .f32) (b : Fin 8192) (r : Fin 28588) :
    val_main_v20 (F := Ideal) x (ix2 b r) = x (ix2 b ⟨col r, col_lt r⟩) := by
  have hr := r.isLt
  have hb := b.isLt
  rw [val_main_v20_apply]
  -- position r of a flattened row is window r / 14, offset r % 14
  have hidx : idx_main_v20 (ix2 b r)
      = ix3 b (⟨r.val / 14, by omega⟩ : Fin 2042) (⟨r.val % 14, by omega⟩ : Fin 14) := by
    funext a; refine Fin.ext ?_
    match a with
    | ⟨0, _⟩ => show (b.val * 28588 + r.val) / 28588 = b.val; omega
    | ⟨1, _⟩ => show (b.val * 28588 + r.val) / 14 % 2042 = r.val / 14; omega
    | ⟨2, _⟩ => show (b.val * 28588 + r.val) % 14 = r.val % 14; omega
  rw [hidx]
  unfold val_main_v17
  rw [Cert.LibColsAdd.gather_cols3_apply_of (by norm_num) _ rfl rfl rfl rfl rfl rfl rfl]
  refine congrArg x (congrArg (ix2 b) (Fin.ext ?_))
  show min (val_main_v16 (F := Ideal) (ix3 (⟨r.val / 14, by omega⟩ : Fin 2042) (⟨r.val % 14, by omega⟩ : Fin 14) (0 : Fin 1))).toInt.toNat (4096 - 1) = col r
  rw [starts_apply]
  show min (BitVec.ofNat 32 (2 * (r.val / 14) + r.val % 14)).toInt.toNat (4096 - 1) = col r
  rw [toInt_ofNat_small _ (by omega)]
  unfold col
  omega

/-- THE REFERENCE'S RESULT IS ITS INPUT, when every entry of the input is a real number. -/
theorem result_eq_input (x : FVec Ideal S8192x4096 .f32) (hx : ∀ i, ∃ a : ℝ, x i = (a : EReal)) :
    val_main_v39 (F := Ideal) x = x := by
  funext i
  obtain ⟨b, d, rfl⟩ : ∃ (b : Fin 8192) (d : Fin 4096), i = ix2 b d := ⟨i 0, i 1, eq_ix2 i⟩
  obtain ⟨a, ha⟩ := hx (ix2 b d)
  rw [val_main_v39_apply, val_main_v38_apply, val_main_v37_apply]
  have hidx : idx_main_v37 (idx_main_v38 (ix2 b d)) = ix1 d := by
    funext k; match k with | ⟨0, _⟩ => rfl
  rw [hidx]
  unfold val_main_v27 val_main_v36
  rw [Cert.LibColsAdd.scatterAdd_col_apply_of _ rfl rfl rfl rfl, Cert.LibIndex.scatterAdd_vec_apply_of _ rfl rfl rfl rfl,
    val_main_v19_apply, val_main_cst_apply, val_main_v28_apply, val_main_cst_5_apply]
  -- a copy that lands on column d is x[b, d]; a one that lands there is one
  have hnum : ∀ r : Fin 28588,
      (if (val_main_v26 (F := Ideal) (ix2 r (0 : Fin 1))).toInt = (d.val : Int) then val_main_v20 (F := Ideal) x (ix2 b r) else 0)
        = if col r = d.val then (a : EReal) else 0 := fun r =>
    if_ctx_congr (sum_hits_iff r d)
      (fun h => by rw [windows_apply, ← ha]; exact congrArg x (congrArg (ix2 b) (Fin.ext h))) (fun _ => rfl)
  have hden : ∀ r : Fin 28588,
      (if (val_main_v34 (F := Ideal) (ix2 r (0 : Fin 1))).toInt = (d.val : Int) then val_main_v35 (F := Ideal) (ix1 r) else 0)
        = if col r = d.val then (1 : EReal) else 0 := fun r =>
    if_ctx_congr (count_hits_iff r d)
      (fun _ => by rw [val_main_v35_apply, val_main_cst_8_apply]; exact Ideal.ofBits_one_f32) (fun _ => rfl)
  rw [Finset.sum_congr rfl (fun r _ => hnum r), Finset.sum_congr rfl (fun r _ => hden r), ha]
  show Ideal.div (Ideal.ofBits .f32 0x00000000#32 + _) (Ideal.ofBits .f32 0x00000000#32 + _) = _
  rw [Ideal.ofBits_zero_f32]
  exact Cert.Average.sum_copies_div_count (fun r : Fin 28588 => col r = d.val) (covered d) a

end Cert.ReferenceIdeal.RefValue

end
-- ==== Proof.Finite.lean ====
/-
  The precondition says that every entry of the input is a real number.

  The precondition compares the absolute value of each entry with plus infinity and takes the conjunction over all
  entries. On the extended reals `|x| < +∞` fails exactly at the two infinities, so under the precondition each entry
  is (the image of) a real number.
-/
import proofs.«172628_j72885595013444_1_alg».proof.Pre_finite_inputs
import Idealize.ShloMosaic.PureOps.Ideal.Laws
import Idealize.ShloMosaic.Lib.ReduceAll
import Idealize.ShloMosaic.Lib.ValueIdx

noncomputable section

namespace Cert.Pre_finite_inputs.Finite

open Cert.Pre_finite_inputs Idealize.ShloMosaic

/-- An extended real whose absolute value is below plus infinity is a real number. -/
theorem real_of_abs_lt_top (y : EReal) (h : max y (-y) < ⊤) : ∃ a : ℝ, y = (a : EReal) := by
  induction y using EReal.rec with
  | bot => simp at h
  | coe a => exact ⟨a, rfl⟩
  | top => simp at h

/-- UNDER THE PRECONDITION EVERY ENTRY IS REAL. -/
theorem entries_real [Facts] (x : FVec Ideal S8192x4096 .f32)
    (h : fn (F := Ideal) x = fun _ => 1#1) (i : S8192x4096.Idx) : ∃ a : ℝ, x i = (a : EReal) := by
  have h0 := congrFun h ValueIdx.ix0
  dsimp only [fn] at h0
  haveI : Subsingleton S_.Idx := ⟨fun a b => funext fun d => d.elim0⟩
  have hi := Host.reduce_andi_all _ _ _ _ _ h0 i
  -- the comparison at entry i came out true
  have hlt : max (x i) (-(x i)) < Ideal.ofBits .f32 0x7F800000#32 := by
    have hi' : BitVec.ofBool (decide (max (x i) (-(x i)) < Ideal.ofBits .f32 0x7F800000#32)) = 1#1 := hi
    cases hd : decide (max (x i) (-(x i)) < Ideal.ofBits .f32 0x7F800000#32) with
    | true => exact of_decide_eq_true hd
    | false => rw [hd] at hi'; exact absurd hi' (by decide)
  have htop : Ideal.ofBits .f32 0x7F800000#32 = ⊤ := by simp [Ideal.ofBits, Ideal.ieee]
  rw [htop] at hlt
  exact real_of_abs_lt_top _ hlt

end Cert.Pre_finite_inputs.Finite

end
-- ==== Proof.lean ====
/- The proof of `Cert.Claim`: the kernel is a copy, and the reference is the identity on finite inputs.

   The kernel moves its input to its output block of rows by block of rows, unchanged (Proof/KernelValue.lean: the
   output array ends equal to the input array). The reference cuts the 4096 columns into 2042 overlapping windows of
   14 columns (window `s` starts at column `2 s`), copies every window out of the input, adds each copy back onto the
   column it came from, and divides by the number of copies the column received. A copy that lands on column `d` is
   the input's own entry in that column, so entry `(b, d)` of the result is `(n · x[b, d]) / n`, where `n ≥ 1` counts
   the window positions that name column `d` (Proof/Columns.lean: the window table read at an index, and every
   column covered; Proof/RefValue.lean: the gather and the two accumulations read at an element;
   Proof/Average.lean: the cancellation). The cancellation needs `x[b, d]` to be a real number, which is what the
   precondition says (Proof/Finite.lean). The idealization rewrote nothing, so `preserves` has nothing to show; the
   two kernels' frames are the generated ones, and the reference's frame is its generated run with the result
   dropped. -/
import proofs.«172628_j72885595013444_1_alg».proof.Defs
import proofs.«172628_j72885595013444_1_alg».proof.Proof.Gen.Kernel
import proofs.«172628_j72885595013444_1_alg».proof.Proof.Gen.Kernel.Frame
import proofs.«172628_j72885595013444_1_alg».proof.Proof.Gen.KernelIdeal
import proofs.«172628_j72885595013444_1_alg».proof.Proof.Gen.KernelIdeal.Frame
import proofs.«172628_j72885595013444_1_alg».proof.Proof.Gen.KernelIdeal.Value
import proofs.«172628_j72885595013444_1_alg».proof.Proof.Gen.ReferenceIdeal
import proofs.«172628_j72885595013444_1_alg».proof.Proof.Gen.ReferenceIdeal.Run
import proofs.«172628_j72885595013444_1_alg».proof.Proof.Gen.ReferenceIdeal.Read
import proofs.«172628_j72885595013444_1_alg».proof.Proof.Gen.Pre_finite_inputs
import proofs.«172628_j72885595013444_1_alg».proof.Proof.KernelValue
import proofs.«172628_j72885595013444_1_alg».proof.Proof.RefValue
import proofs.«172628_j72885595013444_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, with what the result holds dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the input array in their result: the kernel because it copies, the reference because on
    real entries the average of copies of an entry is the entry. -/
theorem algebraic : Cert.algebraic_KernelIdeal_ReferenceIdeal := by
  intro m ρ m' ρ' hpre hagree
  refine ⟨fun c => Cert.KernelIdeal.Copy.src m c, Cert.KernelIdeal.Copy.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, hagree c]
  exact Cert.ReferenceIdeal.RefValue.result_eq_input _ (Cert.Pre_finite_inputs.Finite.entries_real _ (hpre c))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
